-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x2048 .f32) (main_arg8 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S8192x2048 .f32) (main_arg1 : FVec F S8192x2048 .f32) (main_arg2 : FVec F S2048x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S1024x128 : Shape := ⟨2, ![1024, 128]⟩
abbrev S128x2048 : Shape := ⟨2, ![128, 2048]⟩
abbrev S1x128 : Shape := ⟨2, ![1, 128]⟩

abbrev nBuf : Space → Nat
  | .hbm => 14
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x128, .f32⟩
  | .local _ .vmem, ⟨3, _⟩ => ⟨S1024x128, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x128, .f32⟩
  | .local _ .vmem, ⟨9, _⟩ => ⟨S1x128, .f32⟩
  | .local _ .vmem, ⟨10, _⟩ => ⟨S128x2048, .f32⟩
  | .local _ .vmem, ⟨11, _⟩ => ⟨S128x2048, .f32⟩
  | .local _ .vmem, ⟨12, _⟩ => ⟨S1x128, .f32⟩
  | .local _ .vmem, ⟨13, _⟩ => ⟨S1x128, .f32⟩
  | .local _ .vmem, ⟨14, _⟩ => ⟨S128x2048, .f32⟩
  | .local _ .vmem, ⟨15, _⟩ => ⟨S128x2048, .f32⟩
  | .local _ .vmem, ⟨16, _⟩ => ⟨S1x128, .f32⟩
  | .local _ .vmem, ⟨17, _⟩ => ⟨S1x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  dot_S1024x2048_S128x2048_S1024x128_1_1_0_0_n_n_wf : DotDims.WF S1024x2048 S128x2048 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x2048.size a
  hwx0_1 : ∀ i : grid0.Coords, EltTy.bits .f32 = 32 ∨ (Rect.block (s := S8192x2048) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S2048x2048.size a
  hwx0_2 : ∀ i : grid0.Coords, EltTy.bits .f32 = 32 ∨ (Rect.block (s := S2048x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S2048x2048.size a
  hwx0_3 : ∀ i : grid0.Coords, EltTy.bits .f32 = 32 ∨ (Rect.block (s := S2048x2048) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x2048.size a
  hwx0_4 : ∀ i : grid0.Coords, EltTy.bits .f32 = 32 ∨ (Rect.block (s := S1x2048) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S2048x2048.size a
  hwx0_5 : ∀ i : grid0.Coords, EltTy.bits .f32 = 32 ∨ (Rect.block (s := S2048x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x2048.size a
  hwx0_6 : ∀ i : grid0.Coords, EltTy.bits .f32 = 32 ∨ (Rect.block (s := S1x2048) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S2048x2048.size a
  hwx0_7 : ∀ i : grid0.Coords, EltTy.bits .f32 = 32 ∨ (Rect.block (s := S2048x2048) S128x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x2048.size a
  hwx0_8 : ∀ i : grid0.Coords, EltTy.bits .f32 = 32 ∨ (Rect.block (s := S1x2048) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S8192x2048.size a
  hwx0_9 : ∀ i : grid0.Coords, EltTy.bits .f32 = 32 ∨ (Rect.block (s := S8192x2048) S1024x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S8192x2048.size a
  hwx0_10 : ∀ i : grid0.Coords, EltTy.bits .f32 = 32 ∨ (Rect.block (s := S8192x2048) S1024x128.size (cc0_transform_10 i) (hinb0_10 i)).WholeWords (EltTy.packing .f32)

variable [Facts₀]

def dot_S1024x2048_S128x2048_S1024x128_1_1_0_0_n_n : DotDims S1024x2048 S128x2048 S1024x128 where
  lhsContracting := [1]
  rhsContracting := [1]
  lhsNonContracting := [0]
  rhsNonContracting := [0]
  lhsBatch := []
  rhsBatch := []
  wf := dot_S1024x2048_S128x2048_S1024x128_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_0) S1024x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_1) S1024x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S8192x2048, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.SruSpec.lean ====
/-
  The SRU cell as mathematics, on the extended reals.

  Inputs: activations xt and the previous cell state c₀, both 8192 × 2048; four weight matrices W_x, W_f, W_r, W_c,
  each 2048 × 2048 and applied transposed; three bias vectors b_f, b_r, b_c of length 2048.  With
  P(W)[b,o] = ∑ₖ xt[b,k] · W[o,k] and σ the logistic function,

      f  = σ (P(W_f) + b_f)                  (forget gate)
      r  = σ (P(W_r) + b_r)                  (reset gate)
      c  = f · c₀ + (1 − f) · P(W_x)         (new cell state)
      h  = r · tanh c + (1 − r) · (P(W_c) + b_c)

  all elementwise in [b,o].  Both programs compute exactly these two arrays; this file states them once, index by index,
  and records the one identity that relates the two spellings of σ (the single operation, and 1 / (1 + e^(−z)) written out).
  The literal 1 stays the f32 word 0x3F800000 wherever both programs write it, so it is evaluated only inside σ.
-/
import Idealize.ShloMosaic.PureOps.Ideal
import Idealize.ShloMosaic.PureOps.Ideal.Laws
import Idealize.ShloMosaic.Lib.ValueIdx
import Idealize.ShloMosaic.Lib.IdealHost

noncomputable section

namespace Cert.Sru

open Idealize.ShloMosaic Idealize.ShloMosaic.ValueIdx

/-- Activations: batch × features. -/
abbrev Act : Shape := ⟨2, ![8192, 2048]⟩
/-- A weight matrix: output feature × input feature. -/
abbrev Wt : Shape := ⟨2, ![2048, 2048]⟩
/-- A bias vector. -/
abbrev Bias : Shape := ⟨1, ![2048]⟩

/-- The f32 word of 1.0, as both programs spell the constant of `1 − gate`. -/
abbrev oneWord : EReal := Ideal.ofBits .f32 0x3F800000#32

/-- Row `b` of `x` against row `o` of `W`: the entry `[b,o]` of `x · Wᵀ`. -/
def proj (x : Act.Idx → EReal) (W : Wt.Idx → EReal) (b : Fin 8192) (o : Fin 2048) : EReal :=
  ∑ k : Fin 2048, x (ix2 b k) * W (ix2 o k)

/-- The new cell state from its four scalars: the forget logit, its bias, the previous state, the candidate. -/
def cellOf (fl bf c0 xp : EReal) : EReal :=
  Ideal.logistic (fl + bf) * c0 + (oneWord - Ideal.logistic (fl + bf)) * xp

/-- The hidden output from its five scalars: the reset logit, its bias, the new cell state, the skip projection, its bias. -/
def hiddenOf (rl br c cl bc : EReal) : EReal :=
  Ideal.logistic (rl + br) * Ideal.tanh c + (oneWord - Ideal.logistic (rl + br)) * (cl + bc)

/-- The new cell state, as an array. -/
def cellArr (xt c0 : Act.Idx → EReal) (Wx Wf : Wt.Idx → EReal) (bf : Bias.Idx → EReal) : Act.Idx → EReal := fun i =>
  cellOf (proj xt Wf (i 0) (i 1)) (bf (ix1 (i 1))) (c0 i) (proj xt Wx (i 0) (i 1))

/-- The hidden output, as an array. -/
def hiddenArr (xt c0 : Act.Idx → EReal) (Wx Wf : Wt.Idx → EReal) (bf : Bias.Idx → EReal) (Wr : Wt.Idx → EReal)
    (br : Bias.Idx → EReal) (Wc : Wt.Idx → EReal) (bc : Bias.Idx → EReal) : Act.Idx → EReal := fun i =>
  hiddenOf (proj xt Wr (i 0) (i 1)) (br (ix1 (i 1))) (cellArr xt c0 Wx Wf bf i) (proj xt Wc (i 0) (i 1)) (bc (ix1 (i 1)))

/-- σ written out with the word 1.0 — one over one plus e^(−z) — is σ: the word denotes 1, and σ is defined as that quotient. -/
theorem logistic_spelled (z : EReal) : Ideal.div oneWord (oneWord + Ideal.exp (-z)) = Ideal.logistic z := by
  unfold oneWord Ideal.logistic
  rw [Ideal.ofBits_one_f32]

end Cert.Sru

end
-- ==== Proof.RefIsSru.lean ====
/-
  The reference computes the SRU cell of SruSpec.lean.

  Its program is a straight line: four products x · Wᵀ (each entry a sum over the 2048 input features), three biases
  broadcast along the batch axis, σ written out as 1 / (1 + e^(−z)), and the two gate blends.  Read at an index [b,o],
  each product is `proj`, each broadcast bias is the bias at `o`, and the written-out σ is the logistic function
  (`logistic_spelled`); what remains is the same expression on both sides.
-/
import proofs.«149293_j41403484734021_1_alg».proof.Proof.Gen.ReferenceIdeal.Read
import proofs.«149293_j41403484734021_1_alg».proof.Proof.SruSpec

noncomputable section

namespace Cert.Sru.Ref

open Cert.ReferenceIdeal Cert.ReferenceIdeal.Read Idealize.ShloMosaic Idealize.ShloMosaic.ValueIdx

/-! ## The index maps of the four products and of the three biases -/

theorem lrow_x (i : S8192x2048.Idx) (k : Fin 2048) : lidx_main_v0 i k = ix2 (i 0) k :=
  funext fun a => Fin.ext (by match a with | ⟨0, _⟩ => rfl | ⟨1, _⟩ => rfl)
theorem rrow_x (i : S8192x2048.Idx) (k : Fin 2048) : ridx_main_v0 i k = ix2 (i 1) k :=
  funext fun a => Fin.ext (by match a with | ⟨0, _⟩ => rfl | ⟨1, _⟩ => rfl)
theorem lrow_f (i : S8192x2048.Idx) (k : Fin 2048) : lidx_main_v1 i k = ix2 (i 0) k :=
  funext fun a => Fin.ext (by match a with | ⟨0, _⟩ => rfl | ⟨1, _⟩ => rfl)
theorem rrow_f (i : S8192x2048.Idx) (k : Fin 2048) : ridx_main_v1 i k = ix2 (i 1) k :=
  funext fun a => Fin.ext (by match a with | ⟨0, _⟩ => rfl | ⟨1, _⟩ => rfl)
theorem lrow_r (i : S8192x2048.Idx) (k : Fin 2048) : lidx_main_v11 i k = ix2 (i 0) k :=
  funext fun a => Fin.ext (by match a with | ⟨0, _⟩ => rfl | ⟨1, _⟩ => rfl)
theorem rrow_r (i : S8192x2048.Idx) (k : Fin 2048) : ridx_main_v11 i k = ix2 (i 1) k :=
  funext fun a => Fin.ext (by match a with | ⟨0, _⟩ => rfl | ⟨1, _⟩ => rfl)
theorem lrow_c (i : S8192x2048.Idx) (k : Fin 2048) : lidx_main_v26 i k = ix2 (i 0) k :=
  funext fun a => Fin.ext (by match a with | ⟨0, _⟩ => rfl | ⟨1, _⟩ => rfl)
theorem rrow_c (i : S8192x2048.Idx) (k : Fin 2048) : ridx_main_v26 i k = ix2 (i 1) k :=
  funext fun a => Fin.ext (by match a with | ⟨0, _⟩ => rfl | ⟨1, _⟩ => rfl)

/-- A bias broadcast to a row and then along the batch reads, at `[b,o]`, the bias at `o`. -/
theorem bias_f (i : S8192x2048.Idx) : idx_main_v2 (idx_main_v3 i) = ix1 (i 1) :=
  funext fun a => Fin.ext (by match a with | ⟨0, _⟩ => rfl)
theorem bias_r (i : S8192x2048.Idx) : idx_main_v12 (idx_main_v13 i) = ix1 (i 1) :=
  funext fun a => Fin.ext (by match a with | ⟨0, _⟩ => rfl)
theorem bias_c (i : S8192x2048.Idx) : idx_main_v27 (idx_main_v28 i) = ix1 (i 1) :=
  funext fun a => Fin.ext (by match a with | ⟨0, _⟩ => rfl)

/-! ## The two results -/

/-- The reference's second result (`%25`) is the new cell state. -/
theorem cell_eq (x0 x1 : (⟨S8192x2048, .f32⟩ : BufTy).Contents (Elt Ideal)) (x2 x3 : (⟨S2048x2048, .f32⟩ : BufTy).Contents (Elt Ideal))
    (x4 : (⟨S2048, .f32⟩ : BufTy).Contents (Elt Ideal)) :
    val_main_v25 (F := Ideal) x0 x1 x2 x3 x4 = cellArr x0 x1 x2 x3 x4 := by
  funext i
  simp only [val_main_v25_apply, val_main_v24_apply, val_main_v23_apply, val_main_v22_apply, val_main_cst_3_apply,
    val_main_v21_apply, val_main_v10_apply, val_main_v9_apply, val_main_cst_0_apply, val_main_v8_apply, val_main_v7_apply,
    val_main_cst_apply, val_main_v6_apply, val_main_v5_apply, val_main_v4_apply, val_main_v3_apply, val_main_v2_apply,
    val_main_v1_apply, val_main_v0_apply, lrow_x, rrow_x, lrow_f, rrow_f, bias_f]
  unfold cellArr cellOf proj
  rw [← logistic_spelled]
  rfl

/-- The reference's first result (`%35`) is the hidden output. -/
theorem hidden_eq (x0 x1 : (⟨S8192x2048, .f32⟩ : BufTy).Contents (Elt Ideal)) (x2 x3 : (⟨S2048x2048, .f32⟩ : BufTy).Contents (Elt Ideal))
    (x4 : (⟨S2048, .f32⟩ : BufTy).Contents (Elt Ideal)) (x5 : (⟨S2048x2048, .f32⟩ : BufTy).Contents (Elt Ideal))
    (x6 : (⟨S2048, .f32⟩ : BufTy).Contents (Elt Ideal)) (x7 : (⟨S2048x2048, .f32⟩ : BufTy).Contents (Elt Ideal))
    (x8 : (⟨S2048, .f32⟩ : BufTy).Contents (Elt Ideal)) :
    val_main_v35 (F := Ideal) x0 x1 x2 x3 x4 x5 x6 x7 x8 = hiddenArr x0 x1 x2 x3 x4 x5 x6 x7 x8 := by
  funext i
  simp only [val_main_v35_apply, val_main_v34_apply, val_main_v33_apply, val_main_v32_apply, val_main_cst_4_apply,
    val_main_v31_apply, val_main_v30_apply, val_main_v29_apply, val_main_v28_apply, val_main_v27_apply, val_main_v26_apply,
    val_main_v20_apply, val_main_v19_apply, val_main_cst_2_apply, val_main_v18_apply, val_main_v17_apply, val_main_cst_1_apply,
    val_main_v16_apply, val_main_v15_apply, val_main_v14_apply, val_main_v13_apply, val_main_v12_apply, val_main_v11_apply,
    lrow_r, rrow_r, lrow_c, rrow_c, bias_r, bias_c, cell_eq]
  unfold hiddenArr hiddenOf proj
  rw [← logistic_spelled]
  rfl

end Cert.Sru.Ref

end
-- ==== Proof.BodyAtIndex.lean ====
/-
  The kernel body at one entry of its output block.

  At a grid point the body holds a 1024-row block of xt, a 1024 × 128 block of the previous cell state, a 128-row block
  of each weight matrix and a 128-entry piece of each bias.  Each of its four matrix products contracts the 2048 input
  features of a row of the xt block against a row of a weight block, into a zero accumulator, so its entry `[p,q]` is the
  plain sum ∑ₖ x[p,k] · w[q,k] (the narrowing to bf16 before the product is the identity on extended reals).  A bias piece,
  kept as a 1 × 128 row and broadcast down the 1024 rows, reads its entry `q`.  The rest of the body is elementwise, so
  at `[p,q]` the two stored values are `cellOf` and `hiddenOf` of those sums and entries.
-/
import proofs.«149293_j41403484734021_1_alg».proof.Proof.Gen.KernelIdeal.Skeleton
import proofs.«149293_j41403484734021_1_alg».proof.Proof.SruSpec
import Idealize.ShloMosaic.Lib.Pipeline.Value
import Idealize.ShloMosaic.Lib.ValueIdx
import Idealize.ShloMosaic.PureOps.Ideal.Laws

noncomputable section

namespace Cert.Sru.Body

open Cert.KernelIdeal Cert.KernelIdeal.Gen Idealize.ShloMosaic Idealize.ShloMosaic.ValueIdx

/-! ## One matrix product at an entry -/

theorem lhs_axis0 (i : S1024x128.Idx) (q : dot_S1024x2048_S128x2048_S1024x128_1_1_0_0_n_n.contr.Idx) :
    (dot_S1024x2048_S128x2048_S1024x128_1_1_0_0_n_n.lhsIdx i q 0).val = (i 0).val := by
  unfold DotDims.lhsIdx
  rw [dif_neg (show ¬(0 : Fin S1024x2048.rank) ∈ dot_S1024x2048_S128x2048_S1024x128_1_1_0_0_n_n.lhsBatch by decide), dif_pos (show (0 : Fin S1024x2048.rank) ∈ dot_S1024x2048_S128x2048_S1024x128_1_1_0_0_n_n.lhsNonContracting by decide)]
  rfl
theorem lhs_axis1 (i : S1024x128.Idx) (q : dot_S1024x2048_S128x2048_S1024x128_1_1_0_0_n_n.contr.Idx) :
    (dot_S1024x2048_S128x2048_S1024x128_1_1_0_0_n_n.lhsIdx i q 1).val = (q ⟨0, by decide⟩).val :=
  dot_S1024x2048_S128x2048_S1024x128_1_1_0_0_n_n.lhsIdx_val_of_single rfl i q
theorem rhs_axis0 (i : S1024x128.Idx) (q : dot_S1024x2048_S128x2048_S1024x128_1_1_0_0_n_n.contr.Idx) :
    (dot_S1024x2048_S128x2048_S1024x128_1_1_0_0_n_n.rhsIdx i q 0).val = (i 1).val := by
  unfold DotDims.rhsIdx
  rw [dif_neg (show ¬(0 : Fin S128x2048.rank) ∈ dot_S1024x2048_S128x2048_S1024x128_1_1_0_0_n_n.rhsBatch by decide), dif_pos (show (0 : Fin S128x2048.rank) ∈ dot_S1024x2048_S128x2048_S1024x128_1_1_0_0_n_n.rhsNonContracting by decide)]
  rfl
theorem rhs_axis1 (i : S1024x128.Idx) (q : dot_S1024x2048_S128x2048_S1024x128_1_1_0_0_n_n.contr.Idx) :
    (dot_S1024x2048_S128x2048_S1024x128_1_1_0_0_n_n.rhsIdx i q 1).val = (q ⟨0, by decide⟩).val :=
  dot_S1024x2048_S128x2048_S1024x128_1_1_0_0_n_n.rhsIdx_val_of_single rfl i q

/-- A row block of xt against a row block of a weight matrix, both narrowed to bf16, accumulated from zero: entry `[p,q]`
    is the sum over the input features of row `p` of the one times row `q` of the other. -/
theorem dot_at (x : Vec Ideal S1024x2048 .f32) (w : Vec Ideal S128x2048 .f32) (p : Fin 1024) (q : Fin 128) :
    matmul dot_S1024x2048_S128x2048_S1024x128_1_1_0_0_n_n none (k0_pay2 x) (truncf .bf16 w bitsLt_bf16_f32) (constant S1024x128 .f32 0x00000000#32) (ix2 p q)
      = ∑ k : Fin 2048, x (ix2 p k) * w (ix2 q k) := by
  simp only [matmul]
  rw [Ideal.matmul_constant_zero_apply, ← Equiv.sum_comp (contrEquiv1 dot_S1024x2048_S128x2048_S1024x128_1_1_0_0_n_n 2048 rfl rfl).symm]
  refine Finset.sum_congr rfl fun k _ => ?_
  have hk := contrEquiv1_symm_val dot_S1024x2048_S128x2048_S1024x128_1_1_0_0_n_n 2048 rfl rfl k
  have el : dot_S1024x2048_S128x2048_S1024x128_1_1_0_0_n_n.lhsIdx (ix2 p q) ((contrEquiv1 dot_S1024x2048_S128x2048_S1024x128_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S1024x2048_S128x2048_S1024x128_1_1_0_0_n_n.rhsIdx (ix2 p q) ((contrEquiv1 dot_S1024x2048_S128x2048_S1024x128_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]
  rfl

/-! ## One bias piece at an entry -/

/-- A 1 × 128 row broadcast down 1024 rows reads, at `[p,q]`, the row's entry `q`. -/
theorem bias_at (v : Vec Ideal S1x128 .f32) (hs : S1x128.ShapeCasts S1x128) (hb : S1x128.Broadcasts S1024x128)
    (p : Fin 1024) (q : Fin 128) :
    broadcastTo S1024x128 (shapeCast S1x128 v hs) hb (ix2 p q) = v (ix2 0 q) := by
  rw [shapeCast_self]
  exact broadcastTo_apply v hb (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## The two stored values at an entry -/

/-- The value stored to the cell-state block, at `[p,q]`. -/
theorem cell_at (x0 : Vec Ideal S1024x2048 .f32) (x2 x3 : Vec Ideal S128x2048 .f32) (x4 : Vec Ideal S1x128 .f32)
    (x1 : Vec Ideal S1024x128 .f32) (p : Fin 1024) (q : Fin 128) :
    k0_pay4 x0 x2 x3 x4 x1 (ix2 p q)
      = cellOf (∑ k : Fin 2048, x0 (ix2 p k) * x3 (ix2 q k)) (x4 (ix2 0 q)) (x1 (ix2 p q)) (∑ k : Fin 2048, x0 (ix2 p k) * x2 (ix2 q k)) := by
  rw [← dot_at x0 x3 p q, ← dot_at x0 x2 p q, ← bias_at x4 shapeCasts_S1x128_S1x128 broadcasts_S1x128_S1024x128 p q]
  rfl

/-- The value stored to the hidden-output block, at `[p,q]`. -/
theorem hidden_at (x0 : Vec Ideal S1024x2048 .f32) (x2 x3 : Vec Ideal S128x2048 .f32) (x4 : Vec Ideal S1x128 .f32)
    (x1 : Vec Ideal S1024x128 .f32) (x5 : Vec Ideal S128x2048 .f32) (x6 : Vec Ideal S1x128 .f32)
    (x7 : Vec Ideal S128x2048 .f32) (x8 : Vec Ideal S1x128 .f32) (p : Fin 1024) (q : Fin 128) :
    k0_pay1 (k0_pay3 x0 x5 x6) (k0_pay5 x0 x7 x8) (k0_pay6 x0 x2 x3 x4 x1) (ix2 p q)
      = hiddenOf (∑ k : Fin 2048, x0 (ix2 p k) * x5 (ix2 q k)) (x6 (ix2 0 q))
          (cellOf (∑ k : Fin 2048, x0 (ix2 p k) * x3 (ix2 q k)) (x4 (ix2 0 q)) (x1 (ix2 p q)) (∑ k : Fin 2048, x0 (ix2 p k) * x2 (ix2 q k)))
          (∑ k : Fin 2048, x0 (ix2 p k) * x7 (ix2 q k)) (x8 (ix2 0 q)) := by
  rw [← cell_at x0 x2 x3 x4 x1 p q, ← dot_at x0 x5 p q, ← dot_at x0 x7 p q,
    ← bias_at x6 shapeCasts_S1x128_S1x128 broadcasts_S1x128_S1024x128 p q,
    ← bias_at x8 shapeCasts_S1x128_S1x128 broadcasts_S1x128_S1024x128 p q]
  rfl

end Cert.Sru.Body

end
-- ==== Proof.BlocksToArrays.lean ====
/-
  From the kernel's blocks to its two result arrays.

  The grid has 8 × 16 points.  Point (i, j) stages rows 1024·i … 1024·i + 1023 of xt (all 2048 input features), the
  1024 × 128 block (i, j) of the previous cell state, rows 128·j … 128·j + 127 of each weight matrix, entries
  128·j … 128·j + 127 of each bias (the biases reach the kernel reshaped to one row of 2048), and writes back block (i, j) of
  each result.  So entry `[p,q]` of what point (i, j) writes is the SRU cell at the array index
  `[1024·i + p, 128·j + q]`: the staged rows are exactly the rows that index's sums run over.  The 128 output blocks are
  pairwise different and tile the 8192 × 2048 arrays, hence each result array is the whole-array function of SruSpec.lean.
-/
import proofs.«149293_j41403484734021_1_alg».proof.Proof.Gen.KernelIdeal.Value
import proofs.«149293_j41403484734021_1_alg».proof.Proof.BodyAtIndex
import Idealize.ShloMosaic.Lib.StableHlo.Run

set_option maxRecDepth 16384

noncomputable section

namespace Cert.Sru.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Names of literal type: the nine argument arrays, and the nine staged blocks at a point -/

abbrev xtA (c : Dev nD) : S8192x2048.Idx → EReal := m ((c : Thread nD τ).loc main_arg0)
abbrev c0A (c : Dev nD) : S8192x2048.Idx → EReal := m ((c : Thread nD τ).loc main_arg1)
abbrev WxA (c : Dev nD) : S2048x2048.Idx → EReal := m ((c : Thread nD τ).loc main_arg2)
abbrev WfA (c : Dev nD) : S2048x2048.Idx → EReal := m ((c : Thread nD τ).loc main_arg3)
abbrev bfA (c : Dev nD) : S2048.Idx → EReal := m ((c : Thread nD τ).loc main_arg4)
abbrev WrA (c : Dev nD) : S2048x2048.Idx → EReal := m ((c : Thread nD τ).loc main_arg5)
abbrev brA (c : Dev nD) : S2048.Idx → EReal := m ((c : Thread nD τ).loc main_arg6)
abbrev WcA (c : Dev nD) : S2048x2048.Idx → EReal := m ((c : Thread nD τ).loc main_arg7)
abbrev bcA (c : Dev nD) : S2048.Idx → EReal := m ((c : Thread nD τ).loc main_arg8)

/-- The new cell state of the launch arguments. -/
abbrev cellA (c : Dev nD) : S8192x2048.Idx → EReal := cellArr (xtA m c) (c0A m c) (WxA m c) (WfA m c) (bfA m c)
/-- The hidden output of the launch arguments. -/
abbrev hiddenA (c : Dev nD) : S8192x2048.Idx → EReal :=
  hiddenArr (xtA m c) (c0A m c) (WxA m c) (WfA m c) (bfA m c) (WrA m c) (brA m c) (WcA m c) (bcA m c)

abbrev xtB (c : Dev nD) (t : Fin cfg0.N) : Vec Ideal S1024x2048 .f32 := iblk m c 0 t
abbrev c0B (c : Dev nD) (t : Fin cfg0.N) : Vec Ideal S1024x128 .f32 := iblk m c 1 t
abbrev WxB (c : Dev nD) (t : Fin cfg0.N) : Vec Ideal S128x2048 .f32 := iblk m c 2 t
abbrev WfB (c : Dev nD) (t : Fin cfg0.N) : Vec Ideal S128x2048 .f32 := iblk m c 3 t
abbrev bfB (c : Dev nD) (t : Fin cfg0.N) : Vec Ideal S1x128 .f32 := iblk m c 4 t
abbrev WrB (c : Dev nD) (t : Fin cfg0.N) : Vec Ideal S128x2048 .f32 := iblk m c 5 t
abbrev brB (c : Dev nD) (t : Fin cfg0.N) : Vec Ideal S1x128 .f32 := iblk m c 6 t
abbrev WcB (c : Dev nD) (t : Fin cfg0.N) : Vec Ideal S128x2048 .f32 := iblk m c 7 t
abbrev bcB (c : Dev nD) (t : Fin cfg0.N) : Vec Ideal S1x128 .f32 := iblk m c 8 t

/-! ## The index maps over the grid -/

theorem zero_offsets : (![0, 0] : Fin 2 → Nat) = fun _ => 0 := funext fun a => by fin_cases a <;> rfl

/-- Decided over the 128 points: every input window's block index in terms of the output block index (i, j) —
    xt at (i, 0), the previous state at (i, j), each weight at (j, 0), each bias row at (0, j) — the two outputs at the
    same (i, j), and its range. -/
theorem block_indices : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = win0_10.index t (1 : Fin 2)
    ∧ win0_2.index t (0 : Fin 2) = win0_10.index t (1 : Fin 2) ∧ win0_2.index t (1 : Fin 2) = 0
    ∧ win0_3.index t (0 : Fin 2) = win0_10.index t (1 : Fin 2) ∧ win0_3.index t (1 : Fin 2) = 0
    ∧ win0_4.index t (0 : Fin 2) = 0 ∧ win0_4.index t (1 : Fin 2) = win0_10.index t (1 : Fin 2)
    ∧ win0_5.index t (0 : Fin 2) = win0_10.index t (1 : Fin 2) ∧ win0_5.index t (1 : Fin 2) = 0
    ∧ win0_6.index t (0 : Fin 2) = 0 ∧ win0_6.index t (1 : Fin 2) = win0_10.index t (1 : Fin 2)
    ∧ win0_7.index t (0 : Fin 2) = win0_10.index t (1 : Fin 2) ∧ win0_7.index t (1 : Fin 2) = 0
    ∧ win0_8.index t (0 : Fin 2) = 0 ∧ win0_8.index t (1 : Fin 2) = win0_10.index t (1 : Fin 2)
    ∧ win0_9.index t (0 : Fin 2) = win0_10.index t (0 : Fin 2) ∧ win0_9.index t (1 : Fin 2) = win0_10.index t (1 : Fin 2)
    ∧ win0_10.index t (0 : Fin 2) ≤ 7 ∧ win0_10.index t (1 : Fin 2) ≤ 15 :=
  (by decide +kernel : ∀ t : Fin grid0.N, _)

/-- Every one of the 8 × 16 output blocks is some point's. -/
theorem every_block : ∀ (i : Fin 8) (j : Fin 16), ∃ t : Fin cfg0.N, win0_10.index t = ![i.val, j.val] :=
  (by decide +kernel : ∀ (i : Fin 8) (j : Fin 16), ∃ t : Fin grid0.N, win0_10.index t = ![i.val, j.val])

/-- The array row of block row `p` at point `t`. -/
def arow (t : Fin cfg0.N) (p : Fin 1024) : Fin 8192 :=
  ⟨win0_10.index t (0 : Fin 2) * 1024 + p.val, by
    have h := (block_indices t).2.2.2.2.2.2.2.2.2.2.2.2.2.2.2.2.2.2.2.2.1
    have hp := p.isLt
    omega⟩
/-- The array column of block column `q` at point `t`. -/
def acol (t : Fin cfg0.N) (q : Fin 128) : Fin 2048 :=
  ⟨win0_10.index t (1 : Fin 2) * 128 + q.val, by
    have h := (block_indices t).2.2.2.2.2.2.2.2.2.2.2.2.2.2.2.2.2.2.2.2.2
    have hq := q.isLt
    omega⟩

/-! ## The biases as the kernel receives them: one row of 2048 -/

theorem row_of_bf (c : Dev nD) : (V m c main_v0 : S1x2048.Idx → EReal) = shapeCast S1x2048 (bfA m c) shapeCasts_S2048_S1x2048 := by
  unfold V; after_results; rfl
theorem row_of_br (c : Dev nD) : (V m c main_v1 : S1x2048.Idx → EReal) = shapeCast S1x2048 (brA m c) shapeCasts_S2048_S1x2048 := by
  unfold V; after_results; rfl
theorem row_of_bc (c : Dev nD) : (V m c main_v2 : S1x2048.Idx → EReal) = shapeCast S1x2048 (bcA m c) shapeCasts_S2048_S1x2048 := by
  unfold V; after_results; rfl

/-- Entry `o` of the row is entry `o` of the vector. -/
theorem row_entry (b : S2048.Idx → EReal) (i : S1x2048.Idx) (o : Fin 2048) (h0 : (i 0).val = 0) (h1 : (i 1).val = o.val) :
    shapeCast S1x2048 b shapeCasts_S2048_S1x2048 i = b (ix1 o) :=
  shapeCast_apply b shapeCasts_S2048_S1x2048 i (ix1 o) (by
    rw [Shape.rowMajor_val_one, Shape.rowMajor_val_two]
    show o.val = (i 0).val * 2048 + (i 1).val
    omega)

/-! ## Each staged block, read in the argument arrays -/

theorem xt_rows (c : Dev nD) (t : Fin cfg0.N) (p : Fin 1024) (k : Fin 2048) :
    xtB m c t (ix2 p k) = xtA m c (ix2 (arow t p) k) := by
  obtain ⟨e00, e01, -⟩ := block_indices t
  dsimp only [xtB]; unfold iblk; rw [View.read_apply]
  show V m c main_arg0 _ = _
  rw [V_main_arg0]
  refine congrArg (xtA m c) (funext fun a => Fin.ext ?_)
  match a with
  | ⟨0, _⟩ => show win0_0.index t (0 : Fin 2) * 1024 + 1 * p.val = win0_10.index t (0 : Fin 2) * 1024 + p.val; omega
  | ⟨1, _⟩ => show win0_0.index t (1 : Fin 2) * 2048 + 1 * k.val = k.val; omega

theorem c0_block (c : Dev nD) (t : Fin cfg0.N) (p : Fin 1024) (q : Fin 128) :
    c0B m c t (ix2 p q) = c0A m c (ix2 (arow t p) (acol t q)) := by
  obtain ⟨-, -, e10, e11, -⟩ := block_indices t
  dsimp only [c0B]; unfold iblk; rw [View.read_apply]
  show V m c main_arg1 _ = _
  rw [V_main_arg1]
  refine congrArg (c0A m c) (funext fun a => Fin.ext ?_)
  match a with
  | ⟨0, _⟩ => show win0_1.index t (0 : Fin 2) * 1024 + 1 * p.val = win0_10.index t (0 : Fin 2) * 1024 + p.val; omega
  | ⟨1, _⟩ => show win0_1.index t (1 : Fin 2) * 128 + 1 * q.val = win0_10.index t (1 : Fin 2) * 128 + q.val; omega

theorem Wx_rows (c : Dev nD) (t : Fin cfg0.N) (q : Fin 128) (k : Fin 2048) :
    WxB m c t (ix2 q k) = WxA m c (ix2 (acol t q) k) := by
  obtain ⟨-, -, -, -, e20, e21, -⟩ := block_indices t
  dsimp only [WxB]; unfold iblk; rw [View.read_apply]
  show V m c main_arg2 _ = _
  rw [V_main_arg2]
  refine congrArg (WxA m c) (funext fun a => Fin.ext ?_)
  match a with
  | ⟨0, _⟩ => show win0_2.index t (0 : Fin 2) * 128 + 1 * q.val = win0_10.index t (1 : Fin 2) * 128 + q.val; omega
  | ⟨1, _⟩ => show win0_2.index t (1 : Fin 2) * 2048 + 1 * k.val = k.val; omega

theorem Wf_rows (c : Dev nD) (t : Fin cfg0.N) (q : Fin 128) (k : Fin 2048) :
    WfB m c t (ix2 q k) = WfA m c (ix2 (acol t q) k) := by
  obtain ⟨-, -, -, -, -, -, e30, e31, -⟩ := block_indices t
  dsimp only [WfB]; unfold iblk; rw [View.read_apply]
  show V m c main_arg3 _ = _
  rw [V_main_arg3]
  refine congrArg (WfA m c) (funext fun a => Fin.ext ?_)
  match a with
  | ⟨0, _⟩ => show win0_3.index t (0 : Fin 2) * 128 + 1 * q.val = win0_10.index t (1 : Fin 2) * 128 + q.val; omega
  | ⟨1, _⟩ => show win0_3.index t (1 : Fin 2) * 2048 + 1 * k.val = k.val; omega

theorem Wr_rows (c : Dev nD) (t : Fin cfg0.N) (q : Fin 128) (k : Fin 2048) :
    WrB m c t (ix2 q k) = WrA m c (ix2 (acol t q) k) := by
  obtain ⟨-, -, -, -, -, -, -, -, -, -, e50, e51, -⟩ := block_indices t
  dsimp only [WrB]; unfold iblk; rw [View.read_apply]
  show V m c main_arg5 _ = _
  rw [V_main_arg5]
  refine congrArg (WrA m c) (funext fun a => Fin.ext ?_)
  match a with
  | ⟨0, _⟩ => show win0_5.index t (0 : Fin 2) * 128 + 1 * q.val = win0_10.index t (1 : Fin 2) * 128 + q.val; omega
  | ⟨1, _⟩ => show win0_5.index t (1 : Fin 2) * 2048 + 1 * k.val = k.val; omega

theorem Wc_rows (c : Dev nD) (t : Fin cfg0.N) (q : Fin 128) (k : Fin 2048) :
    WcB m c t (ix2 q k) = WcA m c (ix2 (acol t q) k) := by
  obtain ⟨-, -, -, -, -, -, -, -, -, -, -, -, -, -, e70, e71, -⟩ := block_indices t
  dsimp only [WcB]; unfold iblk; rw [View.read_apply]
  show V m c main_arg7 _ = _
  rw [V_main_arg7]
  refine congrArg (WcA m c) (funext fun a => Fin.ext ?_)
  match a with
  | ⟨0, _⟩ => show win0_7.index t (0 : Fin 2) * 128 + 1 * q.val = win0_10.index t (1 : Fin 2) * 128 + q.val; omega
  | ⟨1, _⟩ => show win0_7.index t (1 : Fin 2) * 2048 + 1 * k.val = k.val; omega

theorem bf_piece (c : Dev nD) (t : Fin cfg0.N) (q : Fin 128) :
    bfB m c t (ix2 0 q) = bfA m c (ix1 (acol t q)) := by
  obtain ⟨-, -, -, -, -, -, -, -, e40, e41, -⟩ := block_indices t
  dsimp only [bfB]; unfold iblk; rw [View.read_apply]
  show V m c main_v0 _ = _
  rw [row_of_bf]
  refine row_entry (bfA m c) _ (acol t q) ?_ ?_
  · show win0_4.index t (0 : Fin 2) * 1 + 1 * 0 = 0; omega
  · show win0_4.index t (1 : Fin 2) * 128 + 1 * q.val = win0_10.index t (1 : Fin 2) * 128 + q.val; omega

theorem br_piece (c : Dev nD) (t : Fin cfg0.N) (q : Fin 128) :
    brB m c t (ix2 0 q) = brA m c (ix1 (acol t q)) := by
  obtain ⟨-, -, -, -, -, -, -, -, -, -, -, -, e60, e61, -⟩ := block_indices t
  dsimp only [brB]; unfold iblk; rw [View.read_apply]
  show V m c main_v1 _ = _
  rw [row_of_br]
  refine row_entry (brA m c) _ (acol t q) ?_ ?_
  · show win0_6.index t (0 : Fin 2) * 1 + 1 * 0 = 0; omega
  · show win0_6.index t (1 : Fin 2) * 128 + 1 * q.val = win0_10.index t (1 : Fin 2) * 128 + q.val; omega

theorem bc_piece (c : Dev nD) (t : Fin cfg0.N) (q : Fin 128) :
    bcB m c t (ix2 0 q) = bcA m c (ix1 (acol t q)) := by
  obtain ⟨-, -, -, -, -, -, -, -, -, -, -, -, -, -, -, -, e80, e81, -⟩ := block_indices t
  dsimp only [bcB]; unfold iblk; rw [View.read_apply]
  show V m c main_v2 _ = _
  rw [row_of_bc]
  refine row_entry (bcA m c) _ (acol t q) ?_ ?_
  · show win0_8.index t (0 : Fin 2) * 1 + 1 * 0 = 0; omega
  · show win0_8.index t (1 : Fin 2) * 128 + 1 * q.val = win0_10.index t (1 : Fin 2) * 128 + q.val; omega

/-- The staged rows give the array's sum: row `p` of the xt block against row `q` of a weight block is `proj` at the array index. -/
theorem sum_rows (c : Dev nD) (t : Fin cfg0.N) (p : Fin 1024) (q : Fin 128) (wB : Vec Ideal S128x2048 .f32) (wA : S2048x2048.Idx → EReal)
    (hw : ∀ k : Fin 2048, wB (ix2 q k) = wA (ix2 (acol t q) k)) :
    ∑ k : Fin 2048, xtB m c t (ix2 p k) * wB (ix2 q k) = proj (xtA m c) wA (arow t p) (acol t q) :=
  Finset.sum_congr rfl fun k _ => by rw [xt_rows, hw]

/-! ## What a point writes back, as a block of the whole-array functions -/

/-- Entry `[p,q]` of the cell-state block written at point `t`. -/
theorem cell_entry (c : Dev nD) (t : Fin cfg0.N) (p : Fin 1024) (q : Fin 128) :
    k0_pay4 (xtB m c t) (WxB m c t) (WfB m c t) (bfB m c t) (c0B m c t) (ix2 p q) = cellA m c (ix2 (arow t p) (acol t q)) := by
  refine (Body.cell_at (xtB m c t) (WxB m c t) (WfB m c t) (bfB m c t) (c0B m c t) p q).trans ?_
  rw [sum_rows m c t p q (WfB m c t) (WfA m c) (Wf_rows m c t q), sum_rows m c t p q (WxB m c t) (WxA m c) (Wx_rows m c t q),
    bf_piece, c0_block]
  rfl

/-- Entry `[p,q]` of the hidden-output block written at point `t`. -/
theorem hidden_entry (c : Dev nD) (t : Fin cfg0.N) (p : Fin 1024) (q : Fin 128) :
    k0_pay1 (k0_pay3 (xtB m c t) (WrB m c t) (brB m c t)) (k0_pay5 (xtB m c t) (WcB m c t) (bcB m c t))
        (k0_pay6 (xtB m c t) (WxB m c t) (WfB m c t) (bfB m c t) (c0B m c t)) (ix2 p q)
      = hiddenA m c (ix2 (arow t p) (acol t q)) := by
  refine (Body.hidden_at (xtB m c t) (WxB m c t) (WfB m c t) (bfB m c t) (c0B m c t) (WrB m c t) (brB m c t) (WcB m c t) (bcB m c t) p q).trans ?_
  rw [sum_rows m c t p q (WfB m c t) (WfA m c) (Wf_rows m c t q), sum_rows m c t p q (WxB m c t) (WxA m c) (Wx_rows m c t q),
    sum_rows m c t p q (WrB m c t) (WrA m c) (Wr_rows m c t q), sum_rows m c t p q (WcB m c t) (WcA m c) (Wc_rows m c t q),
    bf_piece, br_piece, bc_piece, c0_block]
  rfl

/-- Where entry `[p,q]` of the cell-state block at point `t` lands in the array. -/
theorem cell_lands (t : Fin cfg0.N) (p : Fin 1024) (q : Fin 128) :
    ((cfg0.win 10).blk t).view.emb (ix2 p q) = ix2 (arow t p) (acol t q) :=
  funext fun a => Fin.ext (by
    match a with
    | ⟨0, _⟩ => show win0_10.index t (0 : Fin 2) * 1024 + 1 * p.val = win0_10.index t (0 : Fin 2) * 1024 + p.val; omega
    | ⟨1, _⟩ => show win0_10.index t (1 : Fin 2) * 128 + 1 * q.val = win0_10.index t (1 : Fin 2) * 128 + q.val; omega)

/-- Where entry `[p,q]` of the hidden-output block at point `t` lands in the array: the same place. -/
theorem hidden_lands (t : Fin cfg0.N) (p : Fin 1024) (q : Fin 128) :
    ((cfg0.win 9).blk t).view.emb (ix2 p q) = ix2 (arow t p) (acol t q) := by
  have h := block_indices t
  have e90 := h.2.2.2.2.2.2.2.2.2.2.2.2.2.2.2.2.2.2.1
  have e91 := h.2.2.2.2.2.2.2.2.2.2.2.2.2.2.2.2.2.2.2.1
  exact funext fun a => Fin.ext (by
    match a with
    | ⟨0, _⟩ => show win0_9.index t (0 : Fin 2) * 1024 + 1 * p.val = win0_10.index t (0 : Fin 2) * 1024 + p.val; omega
    | ⟨1, _⟩ => show win0_9.index t (1 : Fin 2) * 128 + 1 * q.val = win0_10.index t (1 : Fin 2) * 128 + q.val; omega)

/-- Point `t` writes back block `t` of the new cell state. -/
theorem cell_flushed (c : Dev nD) (t : Fin cfg0.N) :
    (dats m 0 c).flushed 10 t = ((cfg0.win 10).blk t).view.read (Elt Ideal) (cellA m c) := by
  rw [Value.flushed10]
  unfold out0_10
  rw [View.canon_unit_zero zero_offsets]
  simp only [View.ld_unit_zero (S := S1024x2048) zero_offsets, View.ld_unit_zero (S := S128x2048) zero_offsets,
    View.ld_unit_zero (S := S1x128) zero_offsets, View.ld_unit_zero (S := S1024x128) zero_offsets]
  funext j
  obtain ⟨p, q, rfl⟩ : ∃ (p : Fin 1024) (q : Fin 128), j = ix2 p q := ⟨j 0, j 1, eq_ix2 j⟩
  show k0_pay4 (xtB m c t) (WxB m c t) (WfB m c t) (bfB m c t) (c0B m c t) (ix2 p q) = cellA m c (((cfg0.win 10).blk t).view.emb (ix2 p q))
  rw [cell_lands]
  exact cell_entry m c t p q

/-- Point `t` writes back block `t` of the hidden output. -/
theorem hidden_flushed (c : Dev nD) (t : Fin cfg0.N) :
    (dats m 0 c).flushed 9 t = ((cfg0.win 9).blk t).view.read (Elt Ideal) (hiddenA m c) := by
  rw [Value.flushed9]
  unfold out0_9
  rw [View.canon_unit_zero zero_offsets]
  simp only [View.ld_unit_zero (S := S1024x2048) zero_offsets, View.ld_unit_zero (S := S128x2048) zero_offsets,
    View.ld_unit_zero (S := S1x128) zero_offsets, View.ld_unit_zero (S := S1024x128) zero_offsets]
  funext j
  obtain ⟨p, q, rfl⟩ : ∃ (p : Fin 1024) (q : Fin 128), j = ix2 p q := ⟨j 0, j 1, eq_ix2 j⟩
  show k0_pay1 (k0_pay3 (xtB m c t) (WrB m c t) (brB m c t)) (k0_pay5 (xtB m c t) (WcB m c t) (bcB m c t))
      (k0_pay6 (xtB m c t) (WxB m c t) (WfB m c t) (bfB m c t) (c0B m c t)) (ix2 p q) = hiddenA m c (((cfg0.win 9).blk t).view.emb (ix2 p q))
  rw [hidden_lands]
  exact hidden_entry m c t p q

/-! ## The blocks tile the arrays -/

/-- An array index is in point `t`'s cell-state block iff each coordinate is in the block's range. -/
theorem in_cell_block (t : Fin cfg0.N) (i : S8192x2048.Idx) :
    i ∈ ((cfg0.win 10).blk t).view.set ↔ ∀ a : Fin 2, win0_10.index t a * S1024x128.size a ≤ (i a).val ∧ (i a).val < win0_10.index t a * S1024x128.size a + S1024x128.size a := by
  show i ∈ ((View.whole main_v3_1).slice (win0_10.rect t)).set ↔ _
  rw [View.set_slice_whole, Rect.mem_set_unit]
  exact Iff.rfl

theorem in_hidden_block (t : Fin cfg0.N) (i : S8192x2048.Idx) :
    i ∈ ((cfg0.win 9).blk t).view.set ↔ ∀ a : Fin 2, win0_9.index t a * S1024x128.size a ≤ (i a).val ∧ (i a).val < win0_9.index t a * S1024x128.size a + S1024x128.size a := by
  show i ∈ ((View.whole main_v3_0).slice (win0_9.rect t)).set ↔ _
  rw [View.set_slice_whole, Rect.mem_set_unit]
  exact Iff.rfl

/-- Every index of the cell-state array is in the block of the point at (row / 1024, column / 128). -/
theorem cell_covered (i : S8192x2048.Idx) : ∃ t : Fin cfg0.N, (cfg0.win 10).flush t = true ∧ i ∈ ((cfg0.win 10).blk t).view.set := by
  have hi0 : (i 0).val < 8192 := (i 0).isLt
  have hi1 : (i 1).val < 2048 := (i 1).isLt
  obtain ⟨t, ht⟩ := every_block ⟨(i 0).val / 1024, by omega⟩ ⟨(i 1).val / 128, by omega⟩
  have q0 : win0_10.index t (0 : Fin 2) = (i 0).val / 1024 := congrFun ht 0
  have q1 : win0_10.index t (1 : Fin 2) = (i 1).val / 128 := congrFun ht 1
  refine ⟨t, flush0_10 t, ?_⟩
  rw [in_cell_block]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 128 ≤ (i 1).val ∧ (i 1).val < win0_10.index t (1 : Fin 2) * 128 + 128; omega

theorem hidden_covered (i : S8192x2048.Idx) : ∃ t : Fin cfg0.N, (cfg0.win 9).flush t = true ∧ i ∈ ((cfg0.win 9).blk t).view.set := by
  have hi0 : (i 0).val < 8192 := (i 0).isLt
  have hi1 : (i 1).val < 2048 := (i 1).isLt
  obtain ⟨t, ht⟩ := every_block ⟨(i 0).val / 1024, by omega⟩ ⟨(i 1).val / 128, by omega⟩
  have q0 : win0_10.index t (0 : Fin 2) = (i 0).val / 1024 := congrFun ht 0
  have q1 : win0_10.index t (1 : Fin 2) = (i 1).val / 128 := congrFun ht 1
  have h := block_indices t
  have e90 := h.2.2.2.2.2.2.2.2.2.2.2.2.2.2.2.2.2.2.1
  have e91 := h.2.2.2.2.2.2.2.2.2.2.2.2.2.2.2.2.2.2.2.1
  refine ⟨t, flush0_9 t, ?_⟩
  rw [in_hidden_block]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 128 ≤ (i 1).val ∧ (i 1).val < win0_9.index t (1 : Fin 2) * 128 + 128; omega

/-! ## The two arrays after the run, and the run -/

theorem cell_final (c : Dev nD) : (dats m 0 c).arrAt 10 cfg0.N = cellA m c :=
  (dats m 0 c).arrAt_eq_of_cover 10 (cellA m c) (fun t _ => cell_flushed m c t) cell_covered

theorem hidden_final (c : Dev nD) : (dats m 0 c).arrAt 9 cfg0.N = hiddenA m c :=
  (dats m 0 c).arrAt_eq_of_cover 9 (hiddenA m c) (fun t _ => hidden_flushed m c t) hidden_covered

/-- Every weakly fair execution of the kernel program ends with the hidden output and the new cell state of the launch
    arguments in its two result arrays, the arguments unchanged. -/
theorem run : θ_run defs (onTc (τ := τ) (main (F := Ideal))) ⟨m, fun _ => 0, ρ⟩ fun r => ∀ c : Dev nD,
      r.2.mem ((c : Thread nD τ).loc main_v3_0) = hiddenA m c
      ∧ r.2.mem ((c : Thread nD τ).loc main_v3_1) = cellA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (hidden_final m c), (h c).2.1.trans (cell_final m c), (h c).2.2⟩)
    (Cert.KernelIdeal.Value.run_blocks m ρ)

end Cert.Sru.Blocks

end
-- ==== Proof.lean ====
/-
  The SRU cell kernel against its jnp reference, over the extended reals.

  Both programs take activations xt and a previous cell state c₀ (8192 × 2048), four 2048 × 2048 weight matrices applied
  transposed and three biases, and return the hidden output h and the new cell state c of

      f = σ (xt·W_fᵀ + b_f),  r = σ (xt·W_rᵀ + b_r),  c = f·c₀ + (1 − f)·(xt·W_xᵀ),  h = r·tanh c + (1 − r)·(xt·W_cᵀ + b_c).

  The kernel computes them block by block over an 8 × 16 grid, each point from a 1024-row block of xt and 128-row blocks of
  the weights, its matrix products fed through bf16 (the identity on extended reals) into a zero accumulator, and σ as one
  operation; the reference computes whole-array products and writes σ out as 1 / (1 + e^(−z)).  Each program's two results
  are the arrays `hiddenArr` and `cellArr` of Proof/SruSpec.lean of its arguments:
    · the reference, read one operation at a time at an index (Proof/RefIsSru.lean);
    · the kernel, each point's block an entrywise instance of the same expressions (Proof/BodyAtIndex.lean), the 128 blocks
      tiling the arrays (Proof/BlocksToArrays.lean).
  No law beyond the definition of σ is used, so finiteness of the inputs is never needed.  The idealization rewrote nothing,
  so there is nothing to preserve; the three frames are the programs' own runs.
-/
import proofs.«149293_j41403484734021_1_alg».proof.Defs
import proofs.«149293_j41403484734021_1_alg».proof.Proof.Gen.Kernel
import proofs.«149293_j41403484734021_1_alg».proof.Proof.Gen.Kernel.Skeleton
import proofs.«149293_j41403484734021_1_alg».proof.Proof.Gen.Kernel.Launch
import proofs.«149293_j41403484734021_1_alg».proof.Proof.Gen.Kernel.Points
import proofs.«149293_j41403484734021_1_alg».proof.Proof.Gen.Kernel.Frame
import proofs.«149293_j41403484734021_1_alg».proof.Proof.Gen.KernelIdeal
import proofs.«149293_j41403484734021_1_alg».proof.Proof.Gen.KernelIdeal.Skeleton
import proofs.«149293_j41403484734021_1_alg».proof.Proof.Gen.KernelIdeal.Launch
import proofs.«149293_j41403484734021_1_alg».proof.Proof.Gen.KernelIdeal.Points
import proofs.«149293_j41403484734021_1_alg».proof.Proof.Gen.KernelIdeal.Frame
import proofs.«149293_j41403484734021_1_alg».proof.Proof.Gen.ReferenceIdeal
import proofs.«149293_j41403484734021_1_alg».proof.Proof.Gen.Pre_finite_inputs
import proofs.«149293_j41403484734021_1_alg».proof.Proof.Gen.KernelIdeal.Value
import proofs.«149293_j41403484734021_1_alg».proof.Proof.Gen.ReferenceIdeal.Run
import proofs.«149293_j41403484734021_1_alg».proof.Proof.Gen.ReferenceIdeal.Read
import proofs.«149293_j41403484734021_1_alg».proof.Proof.RefIsSru
import proofs.«149293_j41403484734021_1_alg».proof.Proof.BlocksToArrays
import Idealize.ShloMosaic.Adequacy
import Idealize.ShloMosaic.Init

noncomputable section

namespace Cert.Proof

open Idealize.ShloMosaic Idealize.SL.Sem

/-- The word-level kernel runs, faults nowhere and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree, the kernel ends with `hiddenArr` and `cellArr` of its arguments in its two results, and
    the reference with the same two functions of its own, equal, arguments. -/
theorem algebraic : Cert.algebraic_KernelIdeal_ReferenceIdeal := by
  intro m ρ m' ρ' _ hagree
  refine ⟨fun c => Cert.Sru.Blocks.hiddenA m c, fun c => Cert.Sru.Blocks.cellA m c, Cert.Sru.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v35_eq, Cert.Sru.Ref.hidden_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
  · rw [(h c).2.1, Cert.ReferenceIdeal.Read.val_main_v25_eq, Cert.Sru.Ref.cell_eq,
      (hagree c).1, (hagree c).2.1, (hagree c).2.2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
